-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S_ : Shape := ⟨0, ![]⟩

class Facts : Prop where
  bcast_S_S1x512x18x24x24 : S_.BroadcastsInDim S1x512x18x24x24 (![] : Fin 0 → Fin S1x512x18x24x24.rank)
  reducesTo_S1x512x18x24x24_S_d0_1_2_3_4 : S1x512x18x24x24.ReducesTo [0, 1, 2, 3, 4] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S128 .f32) (main_arg5 : FVec F S1x1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  main_v28

def fn {F : FTy → Type} [FloatOps F] (main_arg0 : FVec F S1x512x18x24x24 .f32) (main_arg1 : FVec F S128x512 .f32) (main_arg2 : FVec F S128 .f32) (main_arg3 : FVec F S128x512 .f32) (main_arg4 : FVec F S128 .f32) (main_arg5 : FVec F S1x1 .f32) : IVec S_ 1 :=
  let main_v0 : FVec F S1x512x18x24x24 .f32 := Host.absf main_arg0
  let main_cst : FVec F S_ .f32 := constant S_ .f32 0x7F800000#32
  let main_v1 : FVec F S1x512x18x24x24 .f32 := broadcastInDim S1x512x18x24x24 ![] bcast_S_S1x512x18x24x24 main_cst
  let main_v2 : IVec S1x512x18x24x24 1 := cmpf .olt main_v0 main_v1
  let main_c : IVec S_ 1 := constantI S_ 1 1#1
  let main_v3 : IVec S_ 1 := (fun x v => Host.reduce IntOp.andi x v reducesTo_S1x512x18x24x24_S_d0_1_2_3_4 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S512x10368 : Shape := ⟨2, ![512, 10368]⟩
abbrev S128x1 : Shape := ⟨2, ![128, 1]⟩
abbrev S_ : Shape := ⟨0, ![]⟩
abbrev S512x1152 : Shape := ⟨2, ![512, 1152]⟩
abbrev S128x1152 : Shape := ⟨2, ![128, 1152]⟩

abbrev nBuf : Space → Nat
  | .hbm => 16
  | .vmem => 13
  | .smem => 0
  | _ => 0

abbrev bufTy : (tb : Table) → Fin (tcTables nBuf tb) → BufTy
  | .hbm, ⟨0, _⟩ => ⟨S1x512x18x24x24, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x1, .f32⟩
  | .hbm, ⟨6, _⟩ => ⟨S512x10368, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S128x512, .f32⟩
  | .hbm, ⟨14, _⟩ => ⟨S512x10368, .f32⟩
  | .hbm, ⟨15, _⟩ => ⟨S1x512x18x24x24, .f32⟩
  | .local _ .vmem, ⟨0, _⟩ => ⟨S512x1152, .f32⟩
  | .local _ .vmem, ⟨1, _⟩ => ⟨S512x1152, .f32⟩
  | .local _ .vmem, ⟨2, _⟩ => ⟨S128x512, .f32⟩
  | .local _ .vmem, ⟨3, _⟩ => ⟨S128x1, .f32⟩
  | .local _ .vmem, ⟨4, _⟩ => ⟨S128x512, .f32⟩
  | .local _ .vmem, ⟨5, _⟩ => ⟨S512x1152, .f32⟩
  | .local _ .vmem, ⟨6, _⟩ => ⟨S512x1152, .f32⟩
  | .local _ .vmem, ⟨7, _⟩ => ⟨S128x512, .f32⟩
  | .local _ .vmem, ⟨8, _⟩ => ⟨S128x1, .f32⟩
  | .local _ .vmem, ⟨9, _⟩ => ⟨S128x512, .f32⟩
  | .local _ .vmem, ⟨10, _⟩ => ⟨S1x1, .f32⟩
  | .local _ .vmem, ⟨11, _⟩ => ⟨S512x1152, .f32⟩
  | .local _ .vmem, ⟨12, _⟩ => ⟨S512x1152, .f32⟩
  | _, _ => ⟨S1x512x18x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1152 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x512x18x24x24_S512x10368 : S1x512x18x24x24.ShapeCasts S512x10368
  shapeCasts_S128_S128x1 : S128.ShapeCasts S128x1
  shapeCasts_S1x1_S_ : S1x1.ShapeCasts S_
  shapeCasts_S_S1x1 : S_.ShapeCasts S1x1
  inb_S128x512_S128x512_0_0 : ∀ a, (![0, 0] : Fin 2 → Nat) a + S128x512.size a ≤ S128x512.size a
  h_S128x512 : 0 < S128x512.numel
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1152 : S128x1.Broadcasts S128x1152
  shapeCasts_S128x512_S128x512 : S128x512.ShapeCasts S128x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1152 : S1x1.Broadcasts S512x1152
  shapeCasts_S512x10368_S1x512x18x24x24 : S512x10368.ShapeCasts S1x512x18x24x24
  dot_S128x512_S512x1152_S128x1152_1_0_0_1_n_n_wf : DotDims.WF S128x512 S512x1152 S128x1152 [1] [0] [0] [1] [] []
  dot_S128x1152_S512x1152_S128x512_1_1_0_0_n_n_wf : DotDims.WF S128x1152 S512x1152 S128x512 [1] [1] [0] [0] [] []
  dot_S128x512_S128x1152_S512x1152_0_0_1_1_n_n_wf : DotDims.WF S128x512 S128x1152 S512x1152 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1152.size a ≤ S512x10368.size a
  hwx0_0 : ∀ i : grid0.Coords, EltTy.bits .f32 = 32 ∨ (Rect.block (s := S512x10368) S512x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1152.size a ≤ S512x10368.size a
  hwx1_0 : ∀ i : grid1.Coords, EltTy.bits .f32 = 32 ∨ (Rect.block (s := S512x10368) S512x1152.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1152.size a ≤ S512x10368.size a
  hwx1_5 : ∀ i : grid1.Coords, EltTy.bits .f32 = 32 ∨ (Rect.block (s := S512x10368) S512x1152.size (cc1_transform_5 i) (hinb1_5 i)).WholeWords (EltTy.packing .f32)

variable [Facts₀]

def dot_S128x512_S512x1152_S128x1152_1_0_0_1_n_n : DotDims S128x512 S512x1152 S128x1152 where
  lhsContracting := [1]
  rhsContracting := [0]
  lhsNonContracting := [0]
  rhsNonContracting := [1]
  lhsBatch := []
  rhsBatch := []
  wf := dot_S128x512_S512x1152_S128x1152_1_0_0_1_n_n_wf
def dot_S128x1152_S512x1152_S128x512_1_1_0_0_n_n : DotDims S128x1152 S512x1152 S128x512 where
  lhsContracting := [1]
  rhsContracting := [1]
  lhsNonContracting := [0]
  rhsNonContracting := [0]
  lhsBatch := []
  rhsBatch := []
  wf := dot_S128x1152_S512x1152_S128x512_1_1_0_0_n_n_wf
def dot_S128x512_S128x1152_S512x1152_0_0_1_1_n_n : DotDims S128x512 S128x1152 S512x1152 where
  lhsContracting := [0]
  rhsContracting := [0]
  lhsNonContracting := [1]
  rhsNonContracting := [1]
  lhsBatch := []
  rhsBatch := []
  wf := dot_S128x512_S128x1152_S512x1152_0_0_1_1_n_n_wf

abbrev win0_0 : Pipeline.Window sig grid0 :=
  Pipeline.Window.ofSpec (Memref.whole main_v0) S512x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x1152.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S512x10368 : Shape := ⟨2, ![512, 10368]⟩
abbrev S128x10368 : Shape := ⟨2, ![128, 10368]⟩
abbrev S128x1 : Shape := ⟨2, ![128, 1]⟩
abbrev S10368x128 : Shape := ⟨2, ![10368, 128]⟩
abbrev S10368x512 : Shape := ⟨2, ![10368, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1x512x18x24x24, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x1, .f32⟩
  | .hbm, ⟨6, _⟩ => ⟨S512x10368, .f32⟩
  | .hbm, ⟨7, _⟩ => ⟨S128x10368, .f32⟩
  | .hbm, ⟨8, _⟩ => ⟨S128x1, .f32⟩
  | .hbm, ⟨9, _⟩ => ⟨S128x10368, .f32⟩
  | .hbm, ⟨10, _⟩ => ⟨S128x10368, .f32⟩
  | .hbm, ⟨11, _⟩ => ⟨S10368x128, .f32⟩
  | .hbm, ⟨12, _⟩ => ⟨S128x10368, .f32⟩
  | .hbm, ⟨13, _⟩ => ⟨S128x1, .f32⟩
  | .hbm, ⟨14, _⟩ => ⟨S128x10368, .f32⟩
  | .hbm, ⟨15, _⟩ => ⟨S128x10368, .f32⟩
  | .hbm, ⟨16, _⟩ => ⟨S10368x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x512, .f32⟩
  | .hbm, ⟨21, _⟩ => ⟨S10368x512, .f32⟩
  | .hbm, ⟨22, _⟩ => ⟨S10368x512, .f32⟩
  | .hbm, ⟨23, _⟩ => ⟨S10368x512, .f32⟩
  | .hbm, ⟨24, _⟩ => ⟨S512x10368, .f32⟩
  | .hbm, ⟨25, _⟩ => ⟨S1x512x18x24x24, .f32⟩
  | .hbm, ⟨26, _⟩ => ⟨S1x512x18x24x24, .f32⟩
  | _, _ => ⟨S1x512x18x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S1x512x18x24x24_S512x10368 : S1x512x18x24x24.ShapeCasts S512x10368
  bcast_S128_S128x1_0 : S128.BroadcastsInDim S128x1 (![0] : Fin 1 → Fin S128x1.rank)
  bcast_S128x1_S128x10368_0_1 : S128x1.BroadcastsInDim S128x10368 (![0, 1] : Fin 2 → Fin S128x10368.rank)
  transposes_S128x10368_S10368x128_1_0 : S128x10368.Transposes [1, 0] S10368x128
  transposes_S512x10368_S10368x512_1_0 : S512x10368.Transposes [1, 0] S10368x512
  shapeCasts_S1x1_S_ : S1x1.ShapeCasts S_
  bcast_S_S10368x512 : S_.BroadcastsInDim S10368x512 (![] : Fin 0 → Fin S10368x512.rank)
  transposes_S10368x512_S512x10368_1_0 : S10368x512.Transposes [1, 0] S512x10368
  shapeCasts_S512x10368_S1x512x18x24x24 : S512x10368.ShapeCasts S1x512x18x24x24
  dot_S128x512_S512x10368_S128x10368_1_0_0_1_n_n_wf : DotDims.WF S128x512 S512x10368 S128x10368 [1] [0] [0] [1] [] []
  dot_S128x10368_S10368x512_S128x512_1_0_0_1_n_n_wf : DotDims.WF S128x10368 S10368x512 S128x512 [1] [0] [0] [1] [] []
  dot_S10368x128_S128x512_S10368x512_1_0_0_1_n_n_wf : DotDims.WF S10368x128 S128x512 S10368x512 [1] [0] [0] [1] [] []

variable [Facts₀]

def dot_S128x512_S512x10368_S128x10368_1_0_0_1_n_n : DotDims S128x512 S512x10368 S128x10368 where
  lhsContracting := [1]
  rhsContracting := [0]
  lhsNonContracting := [0]
  rhsNonContracting := [1]
  lhsBatch := []
  rhsBatch := []
  wf := dot_S128x512_S512x10368_S128x10368_1_0_0_1_n_n_wf
def dot_S128x10368_S10368x512_S128x512_1_0_0_1_n_n : DotDims S128x10368 S10368x512 S128x512 where
  lhsContracting := [1]
  rhsContracting := [0]
  lhsNonContracting := [0]
  rhsNonContracting := [1]
  lhsBatch := []
  rhsBatch := []
  wf := dot_S128x10368_S10368x512_S128x512_1_0_0_1_n_n_wf
def dot_S10368x128_S128x512_S10368x512_1_0_0_1_n_n : DotDims S10368x128 S128x512 S10368x512 where
  lhsContracting := [1]
  rhsContracting := [0]
  lhsNonContracting := [0]
  rhsNonContracting := [1]
  lhsBatch := []
  rhsBatch := []
  wf := dot_S10368x128_S128x512_S10368x512_1_0_0_1_n_n_wf

class Facts : Prop extends Facts₀ where

variable [Facts]
-- ==== Proof.KPay.lean ====
/-
  The two kernels' arithmetic, read at an index, on the extended reals.

  First kernel: from a block x of the features (512 channels by 1152 positions of one run), the weights w, the bias b and
  the accumulator's contents acc, the new accumulator is acc + (w x + b) xᵀ: at (h, c) the old entry plus the sum
  over the run's positions u of ((w x)(h, u) + b h) * x (c, u).  The zero fill is the constant 0.
  Second kernel: from a block x, the weights w, the bias b, the finished accumulator mm and the scale s, the output block is
  x + (mmᵀ (w x + b)) s: at (c, u), x (c, u) + (sum over heads h of mm (h, c) * ((w x)(h, u) + b h)) * s.
  A change of float format is the identity on the extended reals and a matrix product into a zero accumulator is the
  plain sum of products, whichever axes it contracts.
-/
import proofs.«165967_j57260503990846_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## A column and a single entry, broadcast over a matrix -/

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry `[1, 1]` broadcast to `[a, b]` reads that entry everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The plain product `A B`: `[128, 512]` by `[512, 1152]`, the left operand's columns against the right's rows -/

private theorem lhs_ab_0 (i : S128x1152.Idx) (q : dot_S128x512_S512x1152_S128x1152_1_0_0_1_n_n.contr.Idx) :
    (dot_S128x512_S512x1152_S128x1152_1_0_0_1_n_n.lhsIdx i q 0).val = (i 0).val := by
  unfold DotDims.lhsIdx
  rw [dif_neg (show ¬(0 : Fin S128x512.rank) ∈ dot_S128x512_S512x1152_S128x1152_1_0_0_1_n_n.lhsBatch by decide), dif_pos (show (0 : Fin S128x512.rank) ∈ dot_S128x512_S512x1152_S128x1152_1_0_0_1_n_n.lhsNonContracting by decide)]
  rfl
private theorem lhs_ab_1 (i : S128x1152.Idx) (q : dot_S128x512_S512x1152_S128x1152_1_0_0_1_n_n.contr.Idx) :
    (dot_S128x512_S512x1152_S128x1152_1_0_0_1_n_n.lhsIdx i q 1).val = (q ⟨0, by decide⟩).val :=
  dot_S128x512_S512x1152_S128x1152_1_0_0_1_n_n.lhsIdx_val_of_single rfl i q
private theorem rhs_ab_0 (i : S128x1152.Idx) (q : dot_S128x512_S512x1152_S128x1152_1_0_0_1_n_n.contr.Idx) :
    (dot_S128x512_S512x1152_S128x1152_1_0_0_1_n_n.rhsIdx i q 0).val = (q ⟨0, by decide⟩).val :=
  dot_S128x512_S512x1152_S128x1152_1_0_0_1_n_n.rhsIdx_val_of_single rfl i q
private theorem rhs_ab_1 (i : S128x1152.Idx) (q : dot_S128x512_S512x1152_S128x1152_1_0_0_1_n_n.contr.Idx) :
    (dot_S128x512_S512x1152_S128x1152_1_0_0_1_n_n.rhsIdx i q 1).val = (i 1).val := by
  unfold DotDims.rhsIdx
  rw [dif_neg (show ¬(1 : Fin S512x1152.rank) ∈ dot_S128x512_S512x1152_S128x1152_1_0_0_1_n_n.rhsBatch by decide), dif_pos (show (1 : Fin S512x1152.rank) ∈ dot_S128x512_S512x1152_S128x1152_1_0_0_1_n_n.rhsNonContracting by decide)]
  rfl

/-- Into a zero accumulator, `(A B) (p, u) = ∑ k, A (p, k) * B (k, u)`. -/
private theorem matmul_ab_apply (l : FVec Ideal S128x512 .bf16) (r : FVec Ideal S512x1152 .bf16) (p : Fin 128) (u : Fin 1152) :
    matmul dot_S128x512_S512x1152_S128x1152_1_0_0_1_n_n none l r (constant (F := Ideal) S128x1152 .f32 0x00000000#32) (ix2 p u)
      = ∑ k : Fin 512, l (ix2 p k) * r (ix2 k u) := by
  simp only [matmul]
  rw [Ideal.matmul_constant_zero_apply, ← Equiv.sum_comp (ValueIdx.contrEquiv1 dot_S128x512_S512x1152_S128x1152_1_0_0_1_n_n 512 rfl rfl).symm]
  refine Finset.sum_congr rfl fun k _ => ?_
  have hk := ValueIdx.contrEquiv1_symm_val dot_S128x512_S512x1152_S128x1152_1_0_0_1_n_n 512 rfl rfl k
  have el : dot_S128x512_S512x1152_S128x1152_1_0_0_1_n_n.lhsIdx (ix2 p u) ((ValueIdx.contrEquiv1 dot_S128x512_S512x1152_S128x1152_1_0_0_1_n_n 512 rfl rfl).symm k) = ix2 p k := funext fun a => Fin.ext (by
    match a with
    | ⟨0, _⟩ => exact lhs_ab_0 _ _
    | ⟨1, _⟩ => exact (lhs_ab_1 _ _).trans hk)
  have er : dot_S128x512_S512x1152_S128x1152_1_0_0_1_n_n.rhsIdx (ix2 p u) ((ValueIdx.contrEquiv1 dot_S128x512_S512x1152_S128x1152_1_0_0_1_n_n 512 rfl rfl).symm k) = ix2 k u := funext fun a => Fin.ext (by
    match a with
    | ⟨0, _⟩ => exact (rhs_ab_0 _ _).trans hk
    | ⟨1, _⟩ => exact rhs_ab_1 _ _)
  rw [el, er]

/-! ## The product `A Bᵀ`: `[128, 1152]` by `[512, 1152]`, both operands contracted along their columns -/

private theorem lhs_abt_0 (i : S128x512.Idx) (q : dot_S128x1152_S512x1152_S128x512_1_1_0_0_n_n.contr.Idx) :
    (dot_S128x1152_S512x1152_S128x512_1_1_0_0_n_n.lhsIdx i q 0).val = (i 0).val := by
  unfold DotDims.lhsIdx
  rw [dif_neg (show ¬(0 : Fin S128x1152.rank) ∈ dot_S128x1152_S512x1152_S128x512_1_1_0_0_n_n.lhsBatch by decide), dif_pos (show (0 : Fin S128x1152.rank) ∈ dot_S128x1152_S512x1152_S128x512_1_1_0_0_n_n.lhsNonContracting by decide)]
  rfl
private theorem lhs_abt_1 (i : S128x512.Idx) (q : dot_S128x1152_S512x1152_S128x512_1_1_0_0_n_n.contr.Idx) :
    (dot_S128x1152_S512x1152_S128x512_1_1_0_0_n_n.lhsIdx i q 1).val = (q ⟨0, by decide⟩).val :=
  dot_S128x1152_S512x1152_S128x512_1_1_0_0_n_n.lhsIdx_val_of_single rfl i q
private theorem rhs_abt_0 (i : S128x512.Idx) (q : dot_S128x1152_S512x1152_S128x512_1_1_0_0_n_n.contr.Idx) :
    (dot_S128x1152_S512x1152_S128x512_1_1_0_0_n_n.rhsIdx i q 0).val = (i 1).val := by
  unfold DotDims.rhsIdx
  rw [dif_neg (show ¬(0 : Fin S512x1152.rank) ∈ dot_S128x1152_S512x1152_S128x512_1_1_0_0_n_n.rhsBatch by decide), dif_pos (show (0 : Fin S512x1152.rank) ∈ dot_S128x1152_S512x1152_S128x512_1_1_0_0_n_n.rhsNonContracting by decide)]
  rfl
private theorem rhs_abt_1 (i : S128x512.Idx) (q : dot_S128x1152_S512x1152_S128x512_1_1_0_0_n_n.contr.Idx) :
    (dot_S128x1152_S512x1152_S128x512_1_1_0_0_n_n.rhsIdx i q 1).val = (q ⟨0, by decide⟩).val :=
  dot_S128x1152_S512x1152_S128x512_1_1_0_0_n_n.rhsIdx_val_of_single rfl i q

/-- Into a zero accumulator, `(A Bᵀ) (p, c) = ∑ u, A (p, u) * B (c, u)`: the right operand's free axis, its rows, is the
    result's second axis. -/
private theorem matmul_abt_apply (l : FVec Ideal S128x1152 .bf16) (r : FVec Ideal S512x1152 .bf16) (p : Fin 128) (c : Fin 512) :
    matmul dot_S128x1152_S512x1152_S128x512_1_1_0_0_n_n none l r (constant (F := Ideal) S128x512 .f32 0x00000000#32) (ix2 p c)
      = ∑ u : Fin 1152, l (ix2 p u) * r (ix2 c u) := by
  simp only [matmul]
  rw [Ideal.matmul_constant_zero_apply, ← Equiv.sum_comp (ValueIdx.contrEquiv1 dot_S128x1152_S512x1152_S128x512_1_1_0_0_n_n 1152 rfl rfl).symm]
  refine Finset.sum_congr rfl fun k _ => ?_
  have hk := ValueIdx.contrEquiv1_symm_val dot_S128x1152_S512x1152_S128x512_1_1_0_0_n_n 1152 rfl rfl k
  have el : dot_S128x1152_S512x1152_S128x512_1_1_0_0_n_n.lhsIdx (ix2 p c) ((ValueIdx.contrEquiv1 dot_S128x1152_S512x1152_S128x512_1_1_0_0_n_n 1152 rfl rfl).symm k) = ix2 p k := funext fun a => Fin.ext (by
    match a with
    | ⟨0, _⟩ => exact lhs_abt_0 _ _
    | ⟨1, _⟩ => exact (lhs_abt_1 _ _).trans hk)
  have er : dot_S128x1152_S512x1152_S128x512_1_1_0_0_n_n.rhsIdx (ix2 p c) ((ValueIdx.contrEquiv1 dot_S128x1152_S512x1152_S128x512_1_1_0_0_n_n 1152 rfl rfl).symm k) = ix2 c k := funext fun a => Fin.ext (by
    match a with
    | ⟨0, _⟩ => exact rhs_abt_0 _ _
    | ⟨1, _⟩ => exact (rhs_abt_1 _ _).trans hk)
  rw [el, er]

/-! ## The product `Aᵀ B`: `[128, 512]` by `[128, 1152]`, both operands contracted along their rows -/

private theorem lhs_atb_0 (i : S512x1152.Idx) (q : dot_S128x512_S128x1152_S512x1152_0_0_1_1_n_n.contr.Idx) :
    (dot_S128x512_S128x1152_S512x1152_0_0_1_1_n_n.lhsIdx i q 0).val = (q ⟨0, by decide⟩).val :=
  dot_S128x512_S128x1152_S512x1152_0_0_1_1_n_n.lhsIdx_val_of_single rfl i q
private theorem lhs_atb_1 (i : S512x1152.Idx) (q : dot_S128x512_S128x1152_S512x1152_0_0_1_1_n_n.contr.Idx) :
    (dot_S128x512_S128x1152_S512x1152_0_0_1_1_n_n.lhsIdx i q 1).val = (i 0).val := by
  unfold DotDims.lhsIdx
  rw [dif_neg (show ¬(1 : Fin S128x512.rank) ∈ dot_S128x512_S128x1152_S512x1152_0_0_1_1_n_n.lhsBatch by decide), dif_pos (show (1 : Fin S128x512.rank) ∈ dot_S128x512_S128x1152_S512x1152_0_0_1_1_n_n.lhsNonContracting by decide)]
  rfl
private theorem rhs_atb_0 (i : S512x1152.Idx) (q : dot_S128x512_S128x1152_S512x1152_0_0_1_1_n_n.contr.Idx) :
    (dot_S128x512_S128x1152_S512x1152_0_0_1_1_n_n.rhsIdx i q 0).val = (q ⟨0, by decide⟩).val :=
  dot_S128x512_S128x1152_S512x1152_0_0_1_1_n_n.rhsIdx_val_of_single rfl i q
private theorem rhs_atb_1 (i : S512x1152.Idx) (q : dot_S128x512_S128x1152_S512x1152_0_0_1_1_n_n.contr.Idx) :
    (dot_S128x512_S128x1152_S512x1152_0_0_1_1_n_n.rhsIdx i q 1).val = (i 1).val := by
  unfold DotDims.rhsIdx
  rw [dif_neg (show ¬(1 : Fin S128x1152.rank) ∈ dot_S128x512_S128x1152_S512x1152_0_0_1_1_n_n.rhsBatch by decide), dif_pos (show (1 : Fin S128x1152.rank) ∈ dot_S128x512_S128x1152_S512x1152_0_0_1_1_n_n.rhsNonContracting by decide)]
  rfl

/-- Into a zero accumulator, `(Aᵀ B) (c, u) = ∑ h, A (h, c) * B (h, u)`: the left operand's free axis, its columns, is the
    result's first axis. -/
private theorem matmul_atb_apply (l : FVec Ideal S128x512 .bf16) (r : FVec Ideal S128x1152 .bf16) (c : Fin 512) (u : Fin 1152) :
    matmul dot_S128x512_S128x1152_S512x1152_0_0_1_1_n_n none l r (constant (F := Ideal) S512x1152 .f32 0x00000000#32) (ix2 c u)
      = ∑ h : Fin 128, l (ix2 h c) * r (ix2 h u) := by
  simp only [matmul]
  rw [Ideal.matmul_constant_zero_apply, ← Equiv.sum_comp (ValueIdx.contrEquiv1 dot_S128x512_S128x1152_S512x1152_0_0_1_1_n_n 128 rfl rfl).symm]
  refine Finset.sum_congr rfl fun k _ => ?_
  have hk := ValueIdx.contrEquiv1_symm_val dot_S128x512_S128x1152_S512x1152_0_0_1_1_n_n 128 rfl rfl k
  have el : dot_S128x512_S128x1152_S512x1152_0_0_1_1_n_n.lhsIdx (ix2 c u) ((ValueIdx.contrEquiv1 dot_S128x512_S128x1152_S512x1152_0_0_1_1_n_n 128 rfl rfl).symm k) = ix2 k c := funext fun a => Fin.ext (by
    match a with
    | ⟨0, _⟩ => exact (lhs_atb_0 _ _).trans hk
    | ⟨1, _⟩ => exact lhs_atb_1 _ _)
  have er : dot_S128x512_S128x1152_S512x1152_0_0_1_1_n_n.rhsIdx (ix2 c u) ((ValueIdx.contrEquiv1 dot_S128x512_S128x1152_S512x1152_0_0_1_1_n_n 128 rfl rfl).symm k) = ix2 k u := funext fun a => Fin.ext (by
    match a with
    | ⟨0, _⟩ => exact (rhs_atb_0 _ _).trans hk
    | ⟨1, _⟩ => exact rhs_atb_1 _ _)
  rw [el, er]

/-! ## The payloads -/

/-- The zero fill. -/
theorem k0_pay1_apply (j : S128x512.Idx) : k0_pay1 (F := Ideal) j = (0 : EReal) := by
  unfold k0_pay1
  show Ideal.ofBits .f32 0x00000000#32 = 0
  exact Ideal.ofBits_zero_f32

/-- The accumulator's update at (h, c). -/
theorem k0_pay2_apply (x : Vec Ideal S512x1152 .f32) (w : Vec Ideal S128x512 .f32) (b : Vec Ideal S128x1 .f32) (acc : Vec Ideal S128x512 .f32)
    (h : Fin 128) (c : Fin 512) :
    k0_pay2 x w b acc (ix2 h c)
      = acc (ix2 h c) + ∑ u : Fin 1152, ((∑ k : Fin 512, w (ix2 h k) * x (ix2 k u)) + b (ix2 h (0 : Fin 1))) * x (ix2 c u) := by
  unfold k0_pay2
  simp only [addf_apply, truncf_apply, shapeCast_self, matmul_ab_apply, matmul_abt_apply, broadcastTo_a1_ab_apply]

/-- The output block at (c, u). -/
theorem k1_pay1_apply (x : Vec Ideal S512x1152 .f32) (w : Vec Ideal S128x512 .f32) (b : Vec Ideal S128x1 .f32) (mm : Vec Ideal S128x512 .f32)
    (s : Vec Ideal S1x1 .f32) (c : Fin 512) (u : Fin 1152) :
    k1_pay1 x w b mm s (ix2 c u)
      = x (ix2 c u) + (∑ h : Fin 128, mm (ix2 h c) * ((∑ k : Fin 512, w (ix2 h k) * x (ix2 k u)) + b (ix2 h (0 : Fin 1))))
          * s (ix2 (0 : Fin 1) (0 : Fin 1)) := by
  unfold k1_pay1
  simp only [addf_apply, mulf_apply, truncf_apply, shapeCast_self, matmul_ab_apply, matmul_atb_apply, broadcastTo_a1_ab_apply,
    broadcastTo_11_ab_apply]

end Cert.KernelIdeal.Pay

end
-- ==== Proof.Spec.lean ====
/-
  The mathematics of the block, over the extended reals.

  X is the 512 x 10368 matrix of features (channels by positions); a projection is W X + b (128 x 10368, the bias
  added along every column); the Gram matrix of a projection against the features is (W X + b) Xᵀ (128 x 512), a
  sum over all 10368 positions; the result adds to X the product Gramᵀ (W' X + b') scaled by a number s.
  The positions are cut into 9 runs of 1152: a sum over all positions is the sum over the runs of the sums inside a
  run, and the partial sums over the first n + 1 runs satisfy the recurrence an accumulator started at zero follows.
-/
import Idealize.ShloMosaic.PureOps.Ideal
import Idealize.ShloMosaic.Lib.ValueIdx
import Mathlib.Algebra.BigOperators.Fin
import Mathlib.Algebra.BigOperators.Intervals

noncomputable section

namespace Cert.LinAttn

open Idealize.ShloMosaic Idealize.ShloMosaic.ValueIdx

/-- features: channels by positions -/
abbrev SX : Shape := ⟨2, ![512, 10368]⟩
/-- a projection's weights: heads by channels; also the shape of the Gram matrix -/
abbrev SW : Shape := ⟨2, ![128, 512]⟩
/-- the features as the programs receive them -/
abbrev S5 : Shape := ⟨5, ![1, 512, 18, 24, 24]⟩
/-- a bias -/
abbrev SB : Shape := ⟨1, ![128]⟩

/-- Position u of run i. -/
def col (i : Fin 9) (u : Fin 1152) : Fin 10368 := ⟨i.val * 1152 + u.val, by have := i.isLt; have := u.isLt; omega⟩

/-- (W X + b) at head h, position t. -/
def proj (W : SW.Idx → EReal) (b : Fin 128 → EReal) (X : SX.Idx → EReal) (h : Fin 128) (t : Fin 10368) : EReal :=
  (∑ k : Fin 512, W (ix2 h k) * X (ix2 k t)) + b h

/-- Run i's share of the Gram matrix at (h, c). -/
def chunk (W : SW.Idx → EReal) (b : Fin 128 → EReal) (X : SX.Idx → EReal) (i : Fin 9) (h : Fin 128) (c : Fin 512) : EReal :=
  ∑ u : Fin 1152, proj W b X h (col i u) * X (ix2 c (col i u))

/-- ((W X + b) Xᵀ) at (h, c). -/
def gram (W : SW.Idx → EReal) (b : Fin 128 → EReal) (X : SX.Idx → EReal) (h : Fin 128) (c : Fin 512) : EReal :=
  ∑ t : Fin 10368, proj W b X h t * X (ix2 c t)

/-- The shares of runs 0 … n, summed (runs past the ninth contribute nothing). -/
def partialGram (W : SW.Idx → EReal) (b : Fin 128 → EReal) (X : SX.Idx → EReal) (n : ℕ) (h : Fin 128) (c : Fin 512) : EReal :=
  ∑ i ∈ Finset.range (n + 1), if hi : i < 9 then chunk W b X ⟨i, hi⟩ h c else 0

/-- After the first run an accumulator started at zero holds that run's share. -/
theorem partialGram_zero (W : SW.Idx → EReal) (b : Fin 128 → EReal) (X : SX.Idx → EReal) (h : Fin 128) (c : Fin 512) :
    partialGram W b X 0 h c = 0 + chunk W b X ⟨0, by decide⟩ h c := by
  unfold partialGram
  rw [Finset.sum_range_succ, Finset.range_zero, Finset.sum_empty, dif_pos (by decide : (0 : ℕ) < 9)]

/-- Each later run adds its share. -/
theorem partialGram_succ (W : SW.Idx → EReal) (b : Fin 128 → EReal) (X : SX.Idx → EReal) (n : ℕ) (hn : n + 1 < 9) (h : Fin 128) (c : Fin 512) :
    partialGram W b X (n + 1) h c = partialGram W b X n h c + chunk W b X ⟨n + 1, hn⟩ h c := by
  unfold partialGram
  rw [Finset.sum_range_succ, dif_pos hn]

/-- A sum over all positions is the sum over the nine runs of the sums inside a run: position t is position
    t mod 1152 of run t / 1152, and (i, u) ↦ i * 1152 + u is a bijection from pairs onto positions. -/
private theorem sum_runs (f : Fin 10368 → EReal) :
    ∑ i : Fin 9, ∑ u : Fin 1152, f (col i u) = ∑ t : Fin 10368, f t := by
  obtain ⟨e, he⟩ : ∃ e : Fin 9 × Fin 1152 ≃ Fin 10368, ∀ p, e p = col p.1 p.2 := by
    refine ⟨⟨fun p => col p.1 p.2,
      fun t => (⟨t.val / 1152, by have := t.isLt; omega⟩, ⟨t.val % 1152, by omega⟩), ?_, ?_⟩, fun _ => rfl⟩
    · rintro ⟨⟨i, hi⟩, ⟨u, hu⟩⟩
      simp only [col, Prod.mk.injEq, Fin.mk.injEq]
      constructor <;> omega
    · rintro ⟨t, ht⟩
      simp only [col, Fin.mk.injEq]
      omega
  calc ∑ i : Fin 9, ∑ u : Fin 1152, f (col i u)
      = ∑ p : Fin 9 × Fin 1152, f (col p.1 p.2) :=
        (Fintype.sum_prod_type (fun p : Fin 9 × Fin 1152 => f (col p.1 p.2))).symm
    _ = ∑ p : Fin 9 × Fin 1152, f (e p) := by simp only [he]
    _ = ∑ t : Fin 10368, f t := Equiv.sum_comp e f

/-- After the ninth run the accumulator holds the Gram matrix: the sum over all positions is the sum over the runs. -/
theorem partialGram_last (W : SW.Idx → EReal) (b : Fin 128 → EReal) (X : SX.Idx → EReal) (h : Fin 128) (c : Fin 512) :
    partialGram W b X 8 h c = gram W b X h c := by
  unfold partialGram gram
  rw [show (8 : ℕ) + 1 = 9 from rfl, ← Finset.sum_fin_eq_sum_range (fun i : Fin 9 => chunk W b X i h c)]
  unfold chunk
  exact sum_runs (fun t => proj W b X h t * X (ix2 c t))

/-- The result at channel c, position t: X + (Gramᵀ (Wi X + bi)) s. -/
def mixed (Wi : SW.Idx → EReal) (bi : Fin 128 → EReal) (Wj : SW.Idx → EReal) (bj : Fin 128 → EReal) (X : SX.Idx → EReal) (s : EReal)
    (c : Fin 512) (t : Fin 10368) : EReal :=
  X (ix2 c t) + (∑ h : Fin 128, gram Wj bj X h c * proj Wi bi X h t) * s

/-- The result in the layout of the input: the 512 x 10368 matrix of `mixed` re-laid as 1 x 512 x 18 x 24 x 24, over the
    features re-laid as 512 x 10368. -/
def result (x0 : S5.Idx → EReal) (Wi : SW.Idx → EReal) (bi : SB.Idx → EReal) (Wj : SW.Idx → EReal) (bj : SB.Idx → EReal) (s : EReal)
    (h05 : S5.ShapeCasts SX) (h50 : SX.ShapeCasts S5) : S5.Idx → EReal :=
  shapeCast S5 (fun j : SX.Idx => mixed Wi (fun h => bi (ix1 h)) Wj (fun h => bj (ix1 h)) (shapeCast SX x0 h05) s (j 0) (j 1)) h50

end Cert.LinAttn

end
-- ==== Proof.GramRegion.lean ====
/-
  The first kernel's array after its nine points: the Gram matrix.

  The kernel keeps one 128 x 512 accumulator in its output block, which is written back once, after the last point.  At the
  first point it fills the accumulator with zeros and adds that run's share; at each later point it adds the run's share to
  what the point before left.  Point t reads the block of columns [1152 t, 1152 t + 1152) of the features and the whole
  weights and bias.  So after point n the accumulator holds the shares of runs 0 … n, and after the ninth the sum over all
  positions of (Wj X + bj)(h, p) * X (c, p).
-/
import proofs.«165967_j57260503990846_1_alg».proof.Proof.Gen.KernelIdeal.Frame
import proofs.«165967_j57260503990846_1_alg».proof.Proof.KPay
import proofs.«165967_j57260503990846_1_alg».proof.Proof.Spec

set_option maxRecDepth 16384

noncomputable section

namespace Cert.KernelIdeal.GramRegion

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.LinAttn

theorem zeroOffsets : (![0, 0] : Fin 2 → Nat) = fun _ => 0 := funext fun a => by fin_cases a <;> rfl

section Pieces

variable {F : FTy → Type} [FloatOps F]

/-- At the first point the accumulator ends at the update of the zero fill. -/
theorem firstPoint_eq (c : Dev nD) (i : grid0.Coords) (arg1 : Memref sig .tc .vmem S512x1152 .f32) (harg1 : arg1.IsWhole) (arg2 : Memref sig .tc .vmem S128x512 .f32) (harg2 : arg2.IsWhole) (arg3 : Memref sig .tc .vmem S128x1 .f32) (harg3 : arg3.IsWhole) (arg4 : Memref sig .tc .vmem S128x512 .f32) (harg4 : arg4.IsWhole) (hc0 : cond0_0 i)
    (x0 : Vec F S512x1152 .f32) (x1 : Vec F S128x512 .f32) (x2 : Vec F S128x1 .f32) :
    out0_A_3 c i arg1 harg1 arg2 harg2 arg3 harg3 arg4 harg4 hc0 x0 x1 x2 = k0_pay2 x0 x1 x2 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S128x512) zeroOffsets, View.readCov_unit_zero (S := S128x512) _ zeroOffsets]
  simp only [View.readAt_eq_ld, harg1.read_unread, harg2.read_unread, harg3.read_unread,
    View.ld_unit_zero (S := S512x1152) zeroOffsets, View.ld_unit_zero (S := S128x512) zeroOffsets, View.ld_unit_zero (S := S128x1) zeroOffsets]

/-- At a later point the accumulator ends at the update of what it held. -/
theorem laterPoint_eq (c : Dev nD) (i : grid0.Coords) (arg1 : Memref sig .tc .vmem S512x1152 .f32) (harg1 : arg1.IsWhole) (arg2 : Memref sig .tc .vmem S128x512 .f32) (harg2 : arg2.IsWhole) (arg3 : Memref sig .tc .vmem S128x1 .f32) (harg3 : arg3.IsWhole) (arg4 : Memref sig .tc .vmem S128x512 .f32) (harg4 : arg4.IsWhole) (hc0 : ¬cond0_0 i)
    (x0 : Vec F S512x1152 .f32) (x1 : Vec F S128x512 .f32) (x2 : Vec F S128x1 .f32) (xo3 : Vec F S128x512 .f32) :
    out0_B_3 c i arg1 harg1 arg2 harg2 arg3 harg3 arg4 harg4 hc0 x0 x1 x2 xo3 = k0_pay2 x0 x1 x2 xo3 := by
  unfold out0_B_3
  rw [View.read_writes_eq_canon _ _ _ (cover0_B_3 c i arg1 harg1 arg2 harg2 arg3 harg3 arg4 harg4 hc0 x0 x1 x2 xo3)]
  unfold kernelRun0_B
  dsimp only
  sl_unfold_words
  rw [View.canon_unit_zero (S := S128x512) zeroOffsets]
  simp only [View.readAt_eq_ld, harg1.read_unread, harg2.read_unread, harg3.read_unread, harg4.read_unread,
    View.ld_unit_zero (S := S512x1152) zeroOffsets, View.ld_unit_zero (S := S128x512) zeroOffsets, View.ld_unit_zero (S := S128x1) zeroOffsets]

end Pieces

section Value

variable (V : (c : Dev nD) → (b : Ref sig .tc) → Buf (Elt Ideal) ((c : Thread nD τ).loc b))

/-- The arrays the region reads, as it finds them, each at its literal type. -/
abbrev feat (c : Dev nD) : Vec Ideal S512x10368 .f32 := V c main_v0
abbrev wts (c : Dev nD) : Vec Ideal S128x512 .f32 := V c main_arg3
abbrev bias (c : Dev nD) : Vec Ideal S128x1 .f32 := V c main_v2
/-- The blocks point t is run on. -/
abbrev featBlk (c : Dev nD) (t : Fin cfg0.N) : Vec Ideal S512x1152 .f32 := iblk0 V c 0 t
abbrev wtsBlk (c : Dev nD) (t : Fin cfg0.N) : Vec Ideal S128x512 .f32 := iblk0 V c 1 t
abbrev biasBlk (c : Dev nD) (t : Fin cfg0.N) : Vec Ideal S128x1 .f32 := iblk0 V c 2 t

/-- The grid has nine points. -/
theorem nine : cfg0.N = 9 := N_0

/-- Where each window's block sits at point t: the features' block moves along the columns with the point, the others stay. -/
theorem blockIndex : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The run a point works on. -/
def runOf (t : Fin cfg0.N) : Fin 9 := ⟨t.val, lt_of_lt_of_eq t.isLt nine⟩

/-- Point t's block of the features is run t's columns. -/
theorem featBlk_apply (c : Dev nD) (t : Fin cfg0.N) (k : Fin 512) (u : Fin 1152) :
    featBlk V c t (ix2 k u) = feat V c (ix2 k (col (runOf t) u)) := by
  obtain ⟨e0, e1, -⟩ := blockIndex t
  show V c main_v0 (((cfg0.win 0).blk t).view.emb (ix2 k u)) = V c main_v0 (ix2 k (col (runOf t) u))
  refine congrArg _ (funext fun a => Fin.ext ?_)
  match a with
  | ⟨0, _⟩ => show win0_0.index t (0 : Fin 2) * 512 + 1 * k.val = k.val; omega
  | ⟨1, _⟩ => show win0_0.index t (1 : Fin 2) * 1152 + 1 * u.val = t.val * 1152 + u.val; omega

/-- Its block of the weights is the weights. -/
theorem wtsBlk_apply (c : Dev nD) (t : Fin cfg0.N) (h : Fin 128) (k : Fin 512) :
    wtsBlk V c t (ix2 h k) = wts V c (ix2 h k) := by
  obtain ⟨-, -, e0, e1, -⟩ := blockIndex t
  show V c main_arg3 (((cfg0.win 1).blk t).view.emb (ix2 h k)) = V c main_arg3 (ix2 h k)
  refine congrArg _ (funext fun a => Fin.ext ?_)
  match a with
  | ⟨0, _⟩ => show win0_1.index t (0 : Fin 2) * 128 + 1 * h.val = h.val; omega
  | ⟨1, _⟩ => show win0_1.index t (1 : Fin 2) * 512 + 1 * k.val = k.val; omega

/-- Its block of the bias is the bias. -/
theorem biasBlk_apply (c : Dev nD) (t : Fin cfg0.N) (h : Fin 128) :
    biasBlk V c t (ix2 h (0 : Fin 1)) = bias V c (ix2 h (0 : Fin 1)) := by
  obtain ⟨-, -, -, -, e0, e1, -⟩ := blockIndex t
  show V c main_v2 (((cfg0.win 2).blk t).view.emb (ix2 h (0 : Fin 1))) = V c main_v2 (ix2 h (0 : Fin 1))
  refine congrArg _ (funext fun a => Fin.ext ?_)
  match a with
  | ⟨0, _⟩ => show win0_2.index t (0 : Fin 2) * 128 + 1 * h.val = h.val; omega
  | ⟨1, _⟩ => show win0_2.index t (1 : Fin 2) * 1 + 1 * 0 = 0; omega

/-- The share a point adds is its run's share of the Gram matrix. -/
theorem share_eq (c : Dev nD) (t : Fin cfg0.N) (h : Fin 128) (cc : Fin 512) :
    (∑ u : Fin 1152, ((∑ k : Fin 512, wtsBlk V c t (ix2 h k) * featBlk V c t (ix2 k u)) + biasBlk V c t (ix2 h (0 : Fin 1))) * featBlk V c t (ix2 cc u))
      = chunk (wts V c) (fun h => bias V c (ix2 h (0 : Fin 1))) (feat V c) (runOf t) h cc := by
  unfold chunk proj
  refine Finset.sum_congr rfl fun u _ => ?_
  rw [biasBlk_apply, featBlk_apply]
  refine congrArg (fun z => (z + _) * _) (Finset.sum_congr rfl fun k _ => ?_)
  rw [wtsBlk_apply, featBlk_apply]

/-- THE ACCUMULATOR after point n: the shares of runs 0 … n. -/
theorem outsAt0_apply (c : Dev nD) : ∀ (n : ℕ) (hn : n < cfg0.N) (h : Fin 128) (cc : Fin 512),
    outsAt0 V c n hn (ix2 h cc) = partialGram (wts V c) (fun h => bias V c (ix2 h (0 : Fin 1))) (feat V c) n h cc
  | 0, hn, h, cc => by
    have e := outsAt0_A V c ⟨0, hn⟩ (Nat.zero_mod _)
    refine (congrFun e (ix2 h cc)).trans ?_
    refine (congrFun (firstPoint_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (featBlk V c ⟨0, hn⟩) (wtsBlk V c ⟨0, hn⟩) (biasBlk V c ⟨0, hn⟩)) (ix2 h cc)).trans ?_
    refine (Pay.k0_pay2_apply (featBlk V c ⟨0, hn⟩) (wtsBlk V c ⟨0, hn⟩) (biasBlk V c ⟨0, hn⟩) (k0_pay1 (F := Ideal)) h cc).trans ?_
    rw [Pay.k0_pay1_apply, share_eq, partialGram_zero]
    rfl
  | n + 1, hn, h, cc => by
    have hN : n + 1 < 9 := lt_of_lt_of_eq hn nine
    have h0 : ¬(n + 1) % 9 = 0 := by omega
    have e := outsAt0_B V c ⟨n + 1, hn⟩ h0
    refine (congrFun e (ix2 h cc)).trans ?_
    refine (congrFun (laterPoint_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun hh => h0 ((hcond0_0 ⟨n + 1, hn⟩).mp hh)) (featBlk V c ⟨n + 1, hn⟩) (wtsBlk V c ⟨n + 1, hn⟩) (biasBlk V c ⟨n + 1, hn⟩) (outsAt0 V c n (Nat.lt_of_succ_lt hn))) (ix2 h cc)).trans ?_
    refine (Pay.k0_pay2_apply (featBlk V c ⟨n + 1, hn⟩) (wtsBlk V c ⟨n + 1, hn⟩) (biasBlk V c ⟨n + 1, hn⟩) (outsAt0 V c n (Nat.lt_of_succ_lt hn)) h cc).trans ?_
    rw [outsAt0_apply c n (Nat.lt_of_succ_lt hn) h cc, share_eq, partialGram_succ _ _ _ n hN]
    rfl

/-- The Gram matrix of the arrays the region finds. -/
def gramArr (c : Dev nD) : Vec Ideal S128x512 .f32 := fun j =>
  gram (wts V c) (fun h => bias V c (ix2 h (0 : Fin 1))) (feat V c) (j 0) (j 1)

/-- An index of the array is in point t's block iff each coordinate is in the block's range on its axis. -/
theorem mem_block (t : Fin cfg0.N) (i : S128x512.Idx) :
    i ∈ ((cfg0.win 3).blk t).view.set ↔ ∀ a : Fin 2, win0_3.index t a * S128x512.size a ≤ (i a).val ∧ (i a).val < win0_3.index t a * S128x512.size a + S128x512.size a := by
  show i ∈ ((View.whole main_v6).slice (win0_3.rect t)).set ↔ _
  rw [View.set_slice_whole, Rect.mem_set_unit]
  exact Iff.rfl

/-- What the one write-back (after the last point) carries is the Gram matrix. -/
theorem flushed_eq (c : Dev nD) (t : Fin cfg0.N) (hf : (cfg0.win 3).flush t = true) :
    (dat0 V c).flushed 3 t = ((cfg0.win 3).blk t).view.read (Elt Ideal) (gramArr V c) := by
  have h8 : t.val % 9 = 8 := (flush0_3 t).mp hf
  have hN : t.val < 9 := lt_of_lt_of_eq t.isLt nine
  have ht : t.val = 8 := by omega
  obtain ⟨-, -, -, -, -, -, e0, e1⟩ := blockIndex t
  show (cfg0.win 3).cut (grid0.coords t) ((dat0 V c).after 3 t) = _
  rw [after0_3]
  funext j
  obtain ⟨h, cc, rfl⟩ : ∃ (h : Fin 128) (cc : Fin 512), j = ix2 h cc := ⟨j 0, j 1, eq_ix2 j⟩
  show outsAt0 V c t.val t.isLt (ix2 h cc) = gramArr V c (((cfg0.win 3).blk t).view.emb (ix2 h cc))
  rw [outsAt0_apply]
  have hemb : ((cfg0.win 3).blk t).view.emb (ix2 h cc) = ix2 h cc := by
    funext a; apply Fin.ext
    match a with
    | ⟨0, _⟩ => show win0_3.index t (0 : Fin 2) * 128 + 1 * h.val = h.val; omega
    | ⟨1, _⟩ => show win0_3.index t (1 : Fin 2) * 512 + 1 * cc.val = cc.val; omega
  rw [hemb]
  unfold gramArr
  have : partialGram (wts V c) (fun h => bias V c (ix2 h (0 : Fin 1))) (feat V c) t.val h cc
      = partialGram (wts V c) (fun h => bias V c (ix2 h (0 : Fin 1))) (feat V c) 8 h cc := by rw [ht]
  rw [this, partialGram_last]

/-- THE ARRAY after the region: the Gram matrix. -/
theorem arr0_3 (c : Dev nD) : (dat0 V c).arrAt 3 cfg0.N = gramArr V c := by
  refine (dat0 V c).arrAt_eq_of_cover 3 (gramArr V c) (fun t hf => flushed_eq V c t hf) fun i => ?_
  have h8 : (8 : ℕ) < cfg0.N := by rw [nine]; decide
  refine ⟨⟨8, h8⟩, (flush0_3 ⟨8, h8⟩).mpr rfl, ?_⟩
  obtain ⟨-, -, -, -, -, -, e0, e1⟩ := blockIndex ⟨8, h8⟩
  rw [mem_block]
  intro a
  have hi0 : (i 0).val < 128 := (i 0).isLt
  have hi1 : (i 1).val < 512 := (i 1).isLt
  match a with
  | ⟨0, _⟩ => show win0_3.index ⟨8, h8⟩ (0 : Fin 2) * 128 ≤ (i 0).val ∧ (i 0).val < win0_3.index ⟨8, h8⟩ (0 : Fin 2) * 128 + 128; omega
  | ⟨1, _⟩ => show win0_3.index ⟨8, h8⟩ (1 : Fin 2) * 512 ≤ (i 1).val ∧ (i 1).val < win0_3.index ⟨8, h8⟩ (1 : Fin 2) * 512 + 512; omega

end Value

end Cert.KernelIdeal.GramRegion

end
-- ==== Proof.OutRegion.lean ====
/-
  The second kernel's array after its nine points, as one function of the arrays the region is entered with.

  Point t writes back the block of columns [1152 t, 1152 t + 1152) of the 512 x 10368 output; the nine blocks tile it.  The
  block is the kernel's arithmetic of the same columns of the features, of the whole weights, bias and Gram matrix, and of the
  scale: so the array ends, at (c, p), at X (c, p) + (sum over heads h of M (h, c) * ((Wi X)(h, p) + bi h)) * s.
-/
import proofs.«165967_j57260503990846_1_alg».proof.Proof.Gen.KernelIdeal.Frame
import proofs.«165967_j57260503990846_1_alg».proof.Proof.KPay
import proofs.«165967_j57260503990846_1_alg».proof.Proof.Spec

set_option maxRecDepth 16384

noncomputable section

namespace Cert.KernelIdeal.OutRegion

open Idealize.ShloMosaic Idealize.ShloMosaic.TcCoe Idealize.ShloMosaic.ValueIdx Idealize.SL.Sem
open Idealize.ShloMosaic.Pipeline (Dat)
open Cert.KernelIdeal Cert.KernelIdeal.Gen Cert.LinAttn

variable (V : (c : Dev nD) → (b : Ref sig .tc) → Buf (Elt Ideal) ((c : Thread nD τ).loc b))

/-- The arrays the region reads, as it finds them, each at its literal type. -/
abbrev feat (c : Dev nD) : Vec Ideal S512x10368 .f32 := V c main_v0
abbrev wts (c : Dev nD) : Vec Ideal S128x512 .f32 := V c main_arg1
abbrev bias (c : Dev nD) : Vec Ideal S128x1 .f32 := V c main_v1
abbrev gramArr (c : Dev nD) : Vec Ideal S128x512 .f32 := V c main_v6
abbrev scaleArr (c : Dev nD) : Vec Ideal S1x1 .f32 := V c main_v5

/-- What the output array holds after the region. -/
def outArr (c : Dev nD) : Vec Ideal S512x10368 .f32 := fun j =>
  feat V c j + (∑ h : Fin 128, gramArr V c (ix2 h (j 0)) * proj (wts V c) (fun h => bias V c (ix2 h (0 : Fin 1))) (feat V c) h (j 1))
    * scaleArr V c (ix2 (0 : Fin 1) (0 : Fin 1))

/-! ## The index maps over the nine points -/

/-- The zero offsets, however spelt. -/
theorem zero_offsets : (![0, 0] : Fin 2 → Nat) = fun _ => 0 := funext fun a => by fin_cases a <;> rfl

/-- The region has nine points. -/
theorem nine_points : cfg1.N = 9 := show cfg1.N = 9 from N_1

/-- The printed index maps, decided once over the nine points: the features' and the output's block at point t is block
    (0, t); the weights, the bias, the Gram matrix and the scale are read whole, block (0, 0), at every point. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

/-! ## The blocks the body reads at point t, each at its literal type -/

abbrev xblk (c : Dev nD) (t : Fin cfg1.N) : Vec Ideal S512x1152 .f32 := iblk1 V c 0 t
abbrev wblk (c : Dev nD) (t : Fin cfg1.N) : Vec Ideal S128x512 .f32 := iblk1 V c 1 t
abbrev bblk (c : Dev nD) (t : Fin cfg1.N) : Vec Ideal S128x1 .f32 := iblk1 V c 2 t
abbrev gblk (c : Dev nD) (t : Fin cfg1.N) : Vec Ideal S128x512 .f32 := iblk1 V c 3 t
abbrev sblk (c : Dev nD) (t : Fin cfg1.N) : Vec Ideal S1x1 .f32 := iblk1 V c 4 t

/-- Column u of run t. -/
abbrev runCol (t : Fin cfg1.N) (u : Fin 1152) : Fin 10368 :=
  ⟨t.val * 1152 + u.val, by have ht : t.val < 9 := nine_points ▸ t.isLt; have hu := u.isLt; omega⟩

/-- The features' block at point t is columns [1152 t, 1152 t + 1152) of the features. -/
theorem xblk_apply (c : Dev nD) (t : Fin cfg1.N) (k : Fin 512) (u : Fin 1152) :
    xblk V c t (ix2 k u) = feat V c (ix2 k (runCol t u)) := by
  obtain ⟨e0, e1, -⟩ := idx_facts t
  show V c main_v0 (((cfg1.win 0).blk t).view.emb (ix2 k u)) = V c main_v0 _
  refine congrArg _ (funext fun a => Fin.ext ?_)
  match a with
  | ⟨0, _⟩ => show win1_0.index t (0 : Fin 2) * 512 + 1 * k.val = k.val; omega
  | ⟨1, _⟩ => show win1_0.index t (1 : Fin 2) * 1152 + 1 * u.val = t.val * 1152 + u.val; omega

/-- The weights' block at every point is the weights. -/
theorem wblk_apply (c : Dev nD) (t : Fin cfg1.N) (h : Fin 128) (k : Fin 512) :
    wblk V c t (ix2 h k) = wts V c (ix2 h k) := by
  obtain ⟨-, -, e0, e1, -⟩ := idx_facts t
  show V c main_arg1 (((cfg1.win 1).blk t).view.emb (ix2 h k)) = V c main_arg1 _
  refine congrArg _ (funext fun a => Fin.ext ?_)
  match a with
  | ⟨0, _⟩ => show win1_1.index t (0 : Fin 2) * 128 + 1 * h.val = h.val; omega
  | ⟨1, _⟩ => show win1_1.index t (1 : Fin 2) * 512 + 1 * k.val = k.val; omega

/-- The bias's block at every point is the bias. -/
theorem bblk_apply (c : Dev nD) (t : Fin cfg1.N) (h : Fin 128) (z : Fin 1) :
    bblk V c t (ix2 h z) = bias V c (ix2 h z) := by
  obtain ⟨-, -, -, -, e0, e1, -⟩ := idx_facts t
  show V c main_v1 (((cfg1.win 2).blk t).view.emb (ix2 h z)) = V c main_v1 _
  refine congrArg _ (funext fun a => Fin.ext ?_)
  match a with
  | ⟨0, _⟩ => show win1_2.index t (0 : Fin 2) * 128 + 1 * h.val = h.val; omega
  | ⟨1, _⟩ => show win1_2.index t (1 : Fin 2) * 1 + 1 * z.val = z.val; omega

/-- The Gram matrix's block at every point is the Gram matrix. -/
theorem gblk_apply (c : Dev nD) (t : Fin cfg1.N) (h : Fin 128) (k : Fin 512) :
    gblk V c t (ix2 h k) = gramArr V c (ix2 h k) := by
  obtain ⟨-, -, -, -, -, -, e0, e1, -⟩ := idx_facts t
  show V c main_v6 (((cfg1.win 3).blk t).view.emb (ix2 h k)) = V c main_v6 _
  refine congrArg _ (funext fun a => Fin.ext ?_)
  match a with
  | ⟨0, _⟩ => show win1_3.index t (0 : Fin 2) * 128 + 1 * h.val = h.val; omega
  | ⟨1, _⟩ => show win1_3.index t (1 : Fin 2) * 512 + 1 * k.val = k.val; omega

/-- The scale's block at every point is the scale. -/
theorem sblk_apply (c : Dev nD) (t : Fin cfg1.N) (y z : Fin 1) :
    sblk V c t (ix2 y z) = scaleArr V c (ix2 y z) := by
  obtain ⟨-, -, -, -, -, -, -, -, e0, e1, -⟩ := idx_facts t
  show V c main_v5 (((cfg1.win 4).blk t).view.emb (ix2 y z)) = V c main_v5 _
  refine congrArg _ (funext fun a => Fin.ext ?_)
  match a with
  | ⟨0, _⟩ => show win1_4.index t (0 : Fin 2) * 1 + 1 * y.val = y.val; omega
  | ⟨1, _⟩ => show win1_4.index t (1 : Fin 2) * 1 + 1 * z.val = z.val; omega

/-! ## What point t writes back -/

/-- The output array at (p, r), the projection written out. -/
theorem outArr_apply (c : Dev nD) (p : Fin 512) (r : Fin 10368) :
    outArr V c (ix2 p r)
      = feat V c (ix2 p r) + (∑ h : Fin 128, gramArr V c (ix2 h p) * ((∑ k : Fin 512, wts V c (ix2 h k) * feat V c (ix2 k r)) + bias V c (ix2 h (0 : Fin 1))))
          * scaleArr V c (ix2 (0 : Fin 1) (0 : Fin 1)) := by
  unfold outArr proj
  rfl

/-- Element (p, q) of the output's block at point t is element (p, 1152 t + q) of the array. -/
theorem oblk_emb (t : Fin cfg1.N) (p : Fin 512) (q : Fin 1152) :
    ((cfg1.win 5).blk t).view.emb (ix2 p q) = ix2 p (runCol t q) := by
  obtain ⟨-, -, -, -, -, -, -, -, -, -, e0, e1⟩ := idx_facts t
  refine funext fun a => Fin.ext ?_
  match a with
  | ⟨0, _⟩ => show win1_5.index t (0 : Fin 2) * 512 + 1 * p.val = p.val; omega
  | ⟨1, _⟩ => show win1_5.index t (1 : Fin 2) * 1152 + 1 * q.val = t.val * 1152 + q.val; omega

/-- WHAT POINT t WRITES BACK is block t of the output array: the kernel's arithmetic of the same columns of the features
    and of the whole weights, bias, Gram matrix and scale. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5]
  unfold out1_5
  rw [View.canon_unit_zero zero_offsets]
  simp only [View.ld_unit_zero (S := S512x1152) zero_offsets, View.ld_unit_zero (S := S128x512) zero_offsets,
    View.ld_unit_zero (S := S128x1) zero_offsets, View.ld_unit_zero (S := S1x1) zero_offsets]
  funext j
  obtain ⟨p, q, rfl⟩ : ∃ (p : Fin 512) (q : Fin 1152), j = ix2 p q := ⟨j 0, j 1, eq_ix2 j⟩
  show k1_pay1 (xblk V c t) (wblk V c t) (bblk V c t) (gblk V c t) (sblk V c t) (ix2 p q)
    = outArr V c (((cfg1.win 5).blk t).view.emb (ix2 p q))
  refine (Pay.k1_pay1_apply (xblk V c t) (wblk V c t) (bblk V c t) (gblk V c t) (sblk V c t) p q).trans ?_
  rw [oblk_emb t p q, outArr_apply V c p (runCol t q)]
  simp only [xblk_apply V c t, wblk_apply V c t, bblk_apply V c t, gblk_apply V c t, sblk_apply V c t]

/-! ## The nine blocks tile the array -/

/-- An index of the array is in point t's block iff each coordinate is in the block's range on its axis. -/
theorem mem_blk (t : Fin cfg1.N) (i : S512x10368.Idx) :
    i ∈ ((cfg1.win 5).blk t).view.set
      ↔ ∀ a : Fin 2, win1_5.index t a * S512x1152.size a ≤ (i a).val ∧ (i a).val < win1_5.index t a * S512x1152.size a + S512x1152.size a := by
  show i ∈ ((View.whole main_v7).slice (win1_5.rect t)).set ↔ _
  rw [View.set_slice_whole, Rect.mem_set_unit]
  exact Iff.rfl

/-- Every index is in the block of the point of its column's run: column r is in run r / 1152. -/
theorem cover (i : S512x10368.Idx) :
    ∃ t : Fin cfg1.N, (cfg1.win 5).flush t = true ∧ i ∈ ((cfg1.win 5).blk t).view.set := by
  have hi0 : (i 0).val < 512 := (i 0).isLt
  have hi1 : (i 1).val < 10368 := (i 1).isLt
  let t : Fin cfg1.N := ⟨(i 1).val / 1152, by rw [nine_points]; omega⟩
  obtain ⟨-, -, -, -, -, -, -, -, -, -, e0, e1⟩ := idx_facts t
  have ht : t.val = (i 1).val / 1152 := rfl
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1152 ≤ (i 1).val ∧ (i 1).val < win1_5.index t (1 : Fin 2) * 1152 + 1152; omega

/-- THE OUTPUT ARRAY after the region's nine points. -/
theorem arr1_5 (c : Dev nD) : (dat1 V c).arrAt 5 cfg1.N = outArr V c :=
  (dat1 V c).arrAt_eq_of_cover 5 (outArr V c) (fun t _ => flushed_eq V c t) cover

end Cert.KernelIdeal.OutRegion

end
-- ==== Proof.Whole.lean ====
/-
  The kernel program's result array as one function of its arguments.

  Before the first kernel the host re-lays the features as 512 x 10368, the two biases as columns, and divides the one entry
  of the scale argument by the number of positions.  The first kernel leaves the Gram matrix of the (Wj, bj) projection in
  its output array and touches nothing else; the second kernel reads that array, the features, (Wi, bi) and the scale, and
  leaves X + (Gramᵀ (Wi X + bi)) s; the host re-lays it in the layout of the input.  That is `result`.
-/
import proofs.«165967_j57260503990846_1_alg».proof.Proof.Gen.KernelIdeal.Frame
import proofs.«165967_j57260503990846_1_alg».proof.Proof.GramRegion
import proofs.«165967_j57260503990846_1_alg».proof.Proof.OutRegion
import proofs.«165967_j57260503990846_1_alg».proof.Proof.Spec
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.LinAttn

variable (m : (ℓ : Loc nD τ sig) → Buf (Elt Ideal) ℓ) (ρ : Dev nD → PrngReg)

/-- The features re-laid, as the first kernel finds them. -/
theorem entry0_feat (c : Dev nD) :
    (V1 m ρ c main_v0 : Vec Ideal S512x10368 .f32) = shapeCast S512x10368 (m ((c : Thread nD τ).loc main_arg0)) shapeCasts_S1x512x18x24x24_S512x10368 := by
  show StableHlo.after hostOps0 (W0 m ρ c) (Proc.devRef .tc main_v0) = _
  after_results
  rfl

theorem entry0_wts (c : Dev nD) :
    (V1 m ρ c main_arg3 : Vec Ideal S128x512 .f32) = m ((c : Thread nD τ).loc main_arg3) := by
  show StableHlo.after hostOps0 (W0 m ρ c) (Proc.devRef .tc main_arg3) = _
  after_results

theorem entry0_bias (c : Dev nD) :
    (V1 m ρ c main_v2 : Vec Ideal S128x1 .f32) = shapeCast S128x1 (m ((c : Thread nD τ).loc main_arg4)) shapeCasts_S128_S128x1 := by
  show StableHlo.after hostOps0 (W0 m ρ c) (Proc.devRef .tc main_v2) = _
  after_results
  rfl

theorem entry0_bias1 (c : Dev nD) :
    (V1 m ρ c main_v1 : Vec Ideal S128x1 .f32) = shapeCast S128x1 (m ((c : Thread nD τ).loc main_arg2)) shapeCasts_S128_S128x1 := by
  show StableHlo.after hostOps0 (W0 m ρ c) (Proc.devRef .tc main_v1) = _
  after_results
  rfl

theorem entry0_scale (c : Dev nD) :
    (V1 m ρ c main_v5 : Vec Ideal S1x1 .f32) = shapeCast S1x1 (Host.divf (shapeCast S_ (m ((c : Thread nD τ).loc main_arg5)) shapeCasts_S1x1_S_) (constant (F := Ideal) S_ .f32 0x46220000#32)) shapeCasts_S_S1x1 := by
  show StableHlo.after hostOps0 (W0 m ρ c) (Proc.devRef .tc main_v5) = _
  after_results
  rfl

theorem entry0_wts1 (c : Dev nD) :
    (V1 m ρ c main_arg1 : Vec Ideal S128x512 .f32) = m ((c : Thread nD τ).loc main_arg1) := by
  show StableHlo.after hostOps0 (W0 m ρ c) (Proc.devRef .tc main_arg1) = _
  after_results

/-- The first kernel leaves the features where they were, -/
theorem entry1_feat (c : Dev nD) : (V2 m ρ c main_v0 : Vec Ideal S512x10368 .f32) = V1 m ρ c main_v0 :=
  (W2_arr m ρ c 0).trans (((dat0 (V1 m ρ) c).arrAt_in 0 rfl _).trans (A_eq0 (V1 m ρ) c 0))

/-- the Gram matrix in its output array, -/
theorem entry1_gram (c : Dev nD) : (V2 m ρ c main_v6 : Vec Ideal S128x512 .f32) = GramRegion.gramArr (V1 m ρ) c :=
  (W2_arr m ρ c 3).trans (GramRegion.arr0_3 (V1 m ρ) c)

/-- and every buffer that is no array of its windows as it was. -/
theorem entry1_wts (c : Dev nD) : (V2 m ρ c main_arg1 : Vec Ideal S128x512 .f32) = V1 m ρ c main_arg1 :=
  W2_of_ne m ρ c main_arg1 (by decide)
theorem entry1_bias (c : Dev nD) : (V2 m ρ c main_v1 : Vec Ideal S128x1 .f32) = V1 m ρ c main_v1 :=
  W2_of_ne m ρ c main_v1 (by decide)
theorem entry1_scale (c : Dev nD) : (V2 m ρ c main_v5 : Vec Ideal S1x1 .f32) = V1 m ρ c main_v5 :=
  W2_of_ne m ρ c main_v5 (by decide)

/-- The second kernel's output array after it. -/
theorem exit_out (c : Dev nD) : (W3 m ρ c (Proc.devRef .tc main_v7) : Vec Ideal S512x10368 .f32) = OutRegion.outArr (V2 m ρ) c :=
  (W3_arr m ρ c 5).trans (OutRegion.arr1_5 (V2 m ρ) c)

/-- The host's last operation re-lays it. -/
theorem last_relay (c : Dev nD) :
    (W4 m ρ c (Proc.devRef .tc main_v8) : Vec Ideal S1x512x18x24x24 .f32)
      = shapeCast S1x512x18x24x24 (W3 m ρ c (Proc.devRef .tc main_v7) : Vec Ideal S512x10368 .f32) shapeCasts_S512x10368_S1x512x18x24x24 := by
  show StableHlo.after hostOps2 (W3 m ρ c) (Proc.devRef .tc main_v8) = _
  after_results
  rfl

/-- A bias re-laid as a column, read at row h. -/
theorem column_apply (x : Vec Ideal S128 .f32) (hc : S128.ShapeCasts S128x1) (h : Fin 128) :
    shapeCast S128x1 x hc (ix2 h (0 : Fin 1)) = x (ix1 h) := by
  refine shapeCast_apply x hc (ix2 h (0 : Fin 1)) (ix1 h) ?_
  rw [Shape.rowMajor_val_one, Shape.rowMajor_val_two]
  show h.val = h.val * 1 + 0
  omega

/-- A number re-laid as a 1 x 1 matrix, read at its one entry. -/
theorem single_apply (y : Vec Ideal S_ .f32) (hc : S_.ShapeCasts S1x1) :
    shapeCast S1x1 y hc (ix2 (0 : Fin 1) (0 : Fin 1)) = y ix0 := by
  refine shapeCast_apply y hc (ix2 (0 : Fin 1) (0 : Fin 1)) ix0 ?_
  have h1 := (S_.rowMajor ix0).isLt
  have h2 := (S1x1.rowMajor (ix2 (0 : Fin 1) (0 : Fin 1))).isLt
  have e1 : S_.numel = 1 := by decide
  have e2 : S1x1.numel = 1 := by decide
  omega

/-- The scale as both programs compute it: the one entry of the 1 x 1 argument divided by the number of positions. -/
abbrev scaleOf (x5 : Vec Ideal S1x1 .f32) : EReal :=
  (Host.divf (shapeCast S_ x5 shapeCasts_S1x1_S_) (constant (F := Ideal) S_ .f32 0x46220000#32) : S_.Idx → EReal) ix0

/-- THE RESULT ARRAY after @main, as `result` of the arguments as launched. -/
theorem result_eq (c : Dev nD) :
    (W4 m ρ c (Proc.devRef .tc main_v8) : Vec Ideal S1x512x18x24x24 .f32)
      = result (m ((c : Thread nD τ).loc main_arg0)) (m ((c : Thread nD τ).loc main_arg1)) (m ((c : Thread nD τ).loc main_arg2))
          (m ((c : Thread nD τ).loc main_arg3)) (m ((c : Thread nD τ).loc main_arg4)) (scaleOf (m ((c : Thread nD τ).loc main_arg5)))
          shapeCasts_S1x512x18x24x24_S512x10368 shapeCasts_S512x10368_S1x512x18x24x24 := by
  rw [last_relay, exit_out]
  unfold result
  refine congrArg (fun f => shapeCast S1x512x18x24x24 f shapeCasts_S512x10368_S1x512x18x24x24) ?_
  funext j
  obtain ⟨p, q, rfl⟩ : ∃ (p : Fin 512) (q : Fin 10368), j = ix2 p q := ⟨j 0, j 1, eq_ix2 j⟩
  have hX : OutRegion.feat (V2 m ρ) c = shapeCast S512x10368 (m ((c : Thread nD τ).loc main_arg0)) shapeCasts_S1x512x18x24x24_S512x10368 :=
    (entry1_feat m ρ c).trans (entry0_feat m ρ c)
  have hW : OutRegion.wts (V2 m ρ) c = m ((c : Thread nD τ).loc main_arg1) := (entry1_wts m ρ c).trans (entry0_wts1 m ρ c)
  have hB : OutRegion.bias (V2 m ρ) c = shapeCast S128x1 (m ((c : Thread nD τ).loc main_arg2)) shapeCasts_S128_S128x1 :=
    (entry1_bias m ρ c).trans (entry0_bias1 m ρ c)
  have hG : OutRegion.gramArr (V2 m ρ) c = GramRegion.gramArr (V1 m ρ) c := entry1_gram m ρ c
  have hS : OutRegion.scaleArr (V2 m ρ) c = shapeCast S1x1 (Host.divf (shapeCast S_ (m ((c : Thread nD τ).loc main_arg5)) shapeCasts_S1x1_S_) (constant (F := Ideal) S_ .f32 0x46220000#32)) shapeCasts_S_S1x1 :=
    (entry1_scale m ρ c).trans (entry0_scale m ρ c)
  have hX0 : GramRegion.feat (V1 m ρ) c = shapeCast S512x10368 (m ((c : Thread nD τ).loc main_arg0)) shapeCasts_S1x512x18x24x24_S512x10368 :=
    entry0_feat m ρ c
  have hW0 : GramRegion.wts (V1 m ρ) c = m ((c : Thread nD τ).loc main_arg3) := entry0_wts m ρ c
  have hB0 : GramRegion.bias (V1 m ρ) c = shapeCast S128x1 (m ((c : Thread nD τ).loc main_arg4)) shapeCasts_S128_S128x1 := entry0_bias m ρ c
  unfold OutRegion.outArr
  rw [hX, hW, hB, hG, hS]
  unfold GramRegion.gramArr
  rw [hX0, hW0, hB0]
  have eBj : (fun h : Fin 128 => shapeCast S128x1 (m ((c : Thread nD τ).loc main_arg4)) shapeCasts_S128_S128x1 (ix2 h (0 : Fin 1)))
      = fun h => m ((c : Thread nD τ).loc main_arg4) (ix1 h) := funext fun h => column_apply _ _ h
  have eBi : (fun h : Fin 128 => shapeCast S128x1 (m ((c : Thread nD τ).loc main_arg2)) shapeCasts_S128_S128x1 (ix2 h (0 : Fin 1)))
      = fun h => m ((c : Thread nD τ).loc main_arg2) (ix1 h) := funext fun h => column_apply _ _ h
  have eS : shapeCast S1x1 (Host.divf (shapeCast S_ (m ((c : Thread nD τ).loc main_arg5)) shapeCasts_S1x1_S_) (constant (F := Ideal) S_ .f32 0x46220000#32)) shapeCasts_S_S1x1 (ix2 (0 : Fin 1) (0 : Fin 1))
      = scaleOf (m ((c : Thread nD τ).loc main_arg5)) := single_apply _ _
  rw [eBj, eBi, eS]
  rfl

end Cert.KernelIdeal.Whole

end
-- ==== Proof.RefSide.lean ====
/-
  The reference, read index by index, is the block's mathematics (Spec): its product of the transposed projection
  with the Gram matrix, scaled, transposed back and re-laid, added to the features, is `result`.  The two products'
  factors come in the other order than in `mixed` (the reference multiplies projection by Gram entry): multiplication
  on the extended reals commutes.  Re-laying the re-laid features gives the features back.
-/
import proofs.«165967_j57260503990846_1_alg».proof.Proof.Gen.ReferenceIdeal.Run
import proofs.«165967_j57260503990846_1_alg».proof.Proof.Gen.ReferenceIdeal.Read
import proofs.«165967_j57260503990846_1_alg».proof.Proof.Spec

noncomputable section

namespace Cert.ReferenceIdeal.Bridge

open Idealize.ShloMosaic Idealize.ShloMosaic.ValueIdx Cert.ReferenceIdeal Cert.ReferenceIdeal.Gen Cert.ReferenceIdeal.Read Cert.LinAttn

/-- The scale as both programs compute it: the one entry of the 1 x 1 argument divided by the number of positions. -/
abbrev scaleOf (x5 : (⟨S1x1, .f32⟩ : BufTy).Contents (Elt Ideal)) : EReal :=
  (Host.divf (shapeCast S_ x5 shapeCasts_S1x1_S_) (constant (F := Ideal) S_ .f32 0x46220000#32) : S_.Idx → EReal) ix0

/-! ### The index functions on indices given by their coordinates -/

private theorem lidx1_ix (k : Fin 128) (t : Fin 10368) (q : Fin 512) : lidx_main_v1 (ix2 k t) q = ix2 k q :=
  funext fun a => by match a with | ⟨0, _⟩ => rfl | ⟨1, _⟩ => rfl
private theorem ridx1_ix (k : Fin 128) (t : Fin 10368) (q : Fin 512) : ridx_main_v1 (ix2 k t) q = ix2 q t :=
  funext fun a => by match a with | ⟨0, _⟩ => rfl | ⟨1, _⟩ => rfl
private theorem idx23_ix (k : Fin 128) (t : Fin 10368) : idx_main_v2 (idx_main_v3 (ix2 k t)) = ix1 k :=
  funext fun a => by match a with | ⟨0, _⟩ => rfl
private theorem lidx6_ix (k : Fin 128) (t : Fin 10368) (q : Fin 512) : lidx_main_v6 (ix2 k t) q = ix2 k q :=
  funext fun a => by match a with | ⟨0, _⟩ => rfl | ⟨1, _⟩ => rfl
private theorem ridx6_ix (k : Fin 128) (t : Fin 10368) (q : Fin 512) : ridx_main_v6 (ix2 k t) q = ix2 q t :=
  funext fun a => by match a with | ⟨0, _⟩ => rfl | ⟨1, _⟩ => rfl
private theorem idx78_ix (k : Fin 128) (t : Fin 10368) : idx_main_v7 (idx_main_v8 (ix2 k t)) = ix1 k :=
  funext fun a => by match a with | ⟨0, _⟩ => rfl
private theorem lidx13_ix (k : Fin 128) (c : Fin 512) (u : Fin 10368) : lidx_main_v13 (ix2 k c) u = ix2 k u :=
  funext fun a => by match a with | ⟨0, _⟩ => rfl | ⟨1, _⟩ => rfl
private theorem ridx13_ix (k : Fin 128) (c : Fin 512) (u : Fin 10368) : ridx_main_v13 (ix2 k c) u = ix2 u c :=
  funext fun a => by match a with | ⟨0, _⟩ => rfl | ⟨1, _⟩ => rfl
private theorem idx10_ix (u : Fin 10368) (c : Fin 512) : idx_main_v10 (ix2 u c) = ix2 c u :=
  funext fun a => by match a with | ⟨0, _⟩ => rfl | ⟨1, _⟩ => rfl
private theorem lidx14_ix (c : Fin 512) (t : Fin 10368) (k : Fin 128) : lidx_main_v14 (idx_main_v17 (ix2 c t)) k = ix2 t k :=
  funext fun a => by match a with | ⟨0, _⟩ => rfl | ⟨1, _⟩ => rfl
private theorem ridx14_ix (c : Fin 512) (t : Fin 10368) (k : Fin 128) : ridx_main_v14 (idx_main_v17 (ix2 c t)) k = ix2 k c :=
  funext fun a => by match a with | ⟨0, _⟩ => rfl | ⟨1, _⟩ => rfl
private theorem idx5_ix (t : Fin 10368) (k : Fin 128) : idx_main_v5 (ix2 t k) = ix2 k t :=
  funext fun a => by match a with | ⟨0, _⟩ => rfl | ⟨1, _⟩ => rfl

/-! ### The stages as the block's mathematics -/

/-- The first projection with its bias, at head k, position t. -/
private theorem v4_eq (x0 : (⟨S1x512x18x24x24, .f32⟩ : BufTy).Contents (Elt Ideal)) (x1 : (⟨S128x512, .f32⟩ : BufTy).Contents (Elt Ideal))
    (x2 : (⟨S128, .f32⟩ : BufTy).Contents (Elt Ideal)) (k : Fin 128) (t : Fin 10368) :
    val_main_v4 (F := Ideal) x0 x1 x2 (ix2 k t) = proj x1 (fun h => x2 (ix1 h)) (val_main_v0 (F := Ideal) x0) k t := by
  rw [val_main_v4_apply, val_main_v1_apply, val_main_v3_apply, val_main_v2_apply, idx23_ix]
  generalize val_main_v0 (F := Ideal) x0 = X
  unfold proj
  rw [Ideal.addf_def]
  congr 1
  exact Finset.sum_congr rfl fun q _ => by rw [lidx1_ix, ridx1_ix]

/-- The second projection with its bias, at head k, position t. -/
private theorem v9_eq (x0 : (⟨S1x512x18x24x24, .f32⟩ : BufTy).Contents (Elt Ideal)) (x3 : (⟨S128x512, .f32⟩ : BufTy).Contents (Elt Ideal))
    (x4 : (⟨S128, .f32⟩ : BufTy).Contents (Elt Ideal)) (k : Fin 128) (t : Fin 10368) :
    val_main_v9 (F := Ideal) x0 x3 x4 (ix2 k t) = proj x3 (fun h => x4 (ix1 h)) (val_main_v0 (F := Ideal) x0) k t := by
  rw [val_main_v9_apply, val_main_v6_apply, val_main_v8_apply, val_main_v7_apply, idx78_ix]
  generalize val_main_v0 (F := Ideal) x0 = X
  unfold proj
  rw [Ideal.addf_def]
  congr 1
  exact Finset.sum_congr rfl fun q _ => by rw [lidx6_ix, ridx6_ix]

/-- The Gram matrix of the second projection against the features, at (k, c). -/
private theorem v13_eq (x0 : (⟨S1x512x18x24x24, .f32⟩ : BufTy).Contents (Elt Ideal)) (x3 : (⟨S128x512, .f32⟩ : BufTy).Contents (Elt Ideal))
    (x4 : (⟨S128, .f32⟩ : BufTy).Contents (Elt Ideal)) (k : Fin 128) (c : Fin 512) :
    val_main_v13 (F := Ideal) x0 x3 x4 (ix2 k c) = gram x3 (fun h => x4 (ix1 h)) (val_main_v0 (F := Ideal) x0) k c := by
  rw [val_main_v13_apply]
  unfold gram
  exact Finset.sum_congr rfl fun u _ => by rw [lidx13_ix, ridx13_ix, v9_eq, val_main_v10_apply, idx10_ix]

/-- Re-laying a 512 x 10368 matrix as 1 x 512 x 18 x 24 x 24 reads it at the index with the same row-major position. -/
private theorem relay_apply (f : S512x10368.Idx → EReal) (i : S1x512x18x24x24.Idx) :
    shapeCast S1x512x18x24x24 f shapeCasts_S512x10368_S1x512x18x24x24 i = f (idx_main_v18 i) :=
  shapeCast_apply f shapeCasts_S512x10368_S1x512x18x24x24 i (idx_main_v18 i)
    (by rewrite [Shape.rowMajor_val_two, Shape.rowMajor_val_five]; have h0 : (i 0).val < 1 := (i 0).isLt; have h1 : (i 1).val < 512 := (i 1).isLt; have h2 : (i 2).val < 18 := (i 2).isLt; have h3 : (i 3).val < 24 := (i 3).isLt; have h4 : (i 4).val < 24 := (i 4).isLt; show (((((i 0).val * 512 + (i 1).val) * 18 + (i 2).val) * 24 + (i 3).val) * 24 + (i 4).val) / 10368 * 10368 + (((((i 0).val * 512 + (i 1).val) * 18 + (i 2).val) * 24 + (i 3).val) * 24 + (i 4).val) % 10368 = ((((i 0).val * 512 + (i 1).val) * 18 + (i 2).val) * 24 + (i 3).val) * 24 + (i 4).val; omega)

/-- Re-laying the re-laid features gives the features back. -/
private theorem feat_apply (x0 : (⟨S1x512x18x24x24, .f32⟩ : BufTy).Contents (Elt Ideal)) (i : S1x512x18x24x24.Idx) :
    val_main_v0 (F := Ideal) x0 (idx_main_v18 i) = x0 i := by
  rw [← relay_apply (val_main_v0 (F := Ideal) x0) i]
  unfold val_main_v0
  rw [shapeCast_shapeCast]

/-- The reference's last stage is `result` of its arguments. -/
theorem ref_eq (x0 : (⟨S1x512x18x24x24, .f32⟩ : BufTy).Contents (Elt Ideal)) (x1 : (⟨S128x512, .f32⟩ : BufTy).Contents (Elt Ideal))
    (x2 : (⟨S128, .f32⟩ : BufTy).Contents (Elt Ideal)) (x3 : (⟨S128x512, .f32⟩ : BufTy).Contents (Elt Ideal))
    (x4 : (⟨S128, .f32⟩ : BufTy).Contents (Elt Ideal)) (x5 : (⟨S1x1, .f32⟩ : BufTy).Contents (Elt Ideal)) :
    val_main_v19 (F := Ideal) x0 x1 x2 x3 x4 x5
      = result x0 x1 x2 x3 x4 (scaleOf x5) shapeCasts_S1x512x18x24x24_S512x10368 shapeCasts_S512x10368_S1x512x18x24x24 := by
  funext i
  unfold result
  rw [relay_apply, val_main_v19_apply, val_main_v18_apply, val_main_v17_apply, val_main_v16_apply, val_main_v14_apply,
    val_main_v15_apply, ← feat_apply x0 i]
  generalize idx_main_v18 i = j
  obtain ⟨c, t, rfl⟩ : ∃ c t, j = ix2 c t := ⟨_, _, eq_ix2 j⟩
  have hs : (∑ k : Fin 128, val_main_v5 (F := Ideal) x0 x1 x2 (lidx_main_v14 (idx_main_v17 (ix2 c t)) k)
        * val_main_v13 (F := Ideal) x0 x3 x4 (ridx_main_v14 (idx_main_v17 (ix2 c t)) k))
      = ∑ h : Fin 128, gram x3 (fun h => x4 (ix1 h)) (val_main_v0 (F := Ideal) x0) h c
        * proj x1 (fun h => x2 (ix1 h)) (val_main_v0 (F := Ideal) x0) h t :=
    Finset.sum_congr rfl fun k _ => by
      rw [lidx14_ix, ridx14_ix, val_main_v5_apply, idx5_ix, v4_eq, v13_eq, mul_comm]
  have hsc : val_main_v12 (F := Ideal) x5 (idx_main_v15 (idx_main_v17 (ix2 c t))) = scaleOf x5 := rfl
  rw [hs, hsc, Ideal.addf_def, Ideal.mulf_def]
  rfl

end Cert.ReferenceIdeal.Bridge

end
-- ==== Proof.lean ====
/-
  The certificate of a linear attention block: features X (512 channels by 10368 positions), two 1 x 1 x 1 convolutions
  read as matrix products Wi X + bi and Wj X + bj, the Gram matrix M = (Wj X + bj) Xᵀ, and the result
  X + (Mᵀ (Wi X + bi)) s with s the scale argument over the number of positions.

  The kernel computes M in a first call, accumulating over nine runs of 1152 positions into one resident block, and the
  result in a second call, run by run; the reference computes the same products whole.  On the extended reals the two agree:
  a sum over all positions is the sum over the runs of the sums inside a run (addition is commutative and associative
  there), a change of float format is the identity, and the products' factors commute.  No finiteness of the inputs is used.

  The three frames are the generated ones (the reference's is its generated run with the result dropped); the idealization
  rewrote nothing, so `preserves` is trivial; the value claim puts the kernel program's result array (Whole) and the
  reference's last stage (RefSide) at the same function `result` of the arguments (Spec).
-/
import proofs.«165967_j57260503990846_1_alg».proof.Defs
import proofs.«165967_j57260503990846_1_alg».proof.Proof.Gen.Kernel
import proofs.«165967_j57260503990846_1_alg».proof.Proof.Gen.Kernel.Frame
import proofs.«165967_j57260503990846_1_alg».proof.Proof.Gen.KernelIdeal
import proofs.«165967_j57260503990846_1_alg».proof.Proof.Gen.KernelIdeal.Frame
import proofs.«165967_j57260503990846_1_alg».proof.Proof.Gen.ReferenceIdeal
import proofs.«165967_j57260503990846_1_alg».proof.Proof.Gen.ReferenceIdeal.Run
import proofs.«165967_j57260503990846_1_alg».proof.Proof.Gen.ReferenceIdeal.Read
import proofs.«165967_j57260503990846_1_alg».proof.Proof.Gen.Pre_finite_inputs
import proofs.«165967_j57260503990846_1_alg».proof.Proof.KRun
import proofs.«165967_j57260503990846_1_alg».proof.Proof.Whole
import proofs.«165967_j57260503990846_1_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `result` of the arguments: the kernel program by its run and the fold
    through its two calls, the reference by its run read stage by stage; the arguments agree. -/
theorem algebraic : Cert.algebraic_KernelIdeal_ReferenceIdeal := by
  intro m ρ m' ρ' _ hagree
  refine ⟨fun c => Cert.LinAttn.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (Cert.KernelIdeal.Whole.scaleOf (m ((c : Thread Cert.KernelIdeal.nD Cert.KernelIdeal.τ).loc Cert.KernelIdeal.main_arg5)))
      Cert.KernelIdeal.Gen.shapeCasts_S1x512x18x24x24_S512x10368 Cert.KernelIdeal.Gen.shapeCasts_S512x10368_S1x512x18x24x24, ?_, ?_⟩
  · exact (θ_run Cert.KernelIdeal.defs _ _).mono
      (fun r h c => ⟨(h c).1.trans (Cert.KernelIdeal.Whole.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v19_eq (F := Ideal)
      (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3))
      (m' ((c : Thread Cert.ReferenceIdeal.nD Cert.ReferenceIdeal.τ).loc Cert.ReferenceIdeal.main_arg4))
      (m' ((c : Thread Cert.ReferenceIdeal.nD Cert.ReferenceIdeal.τ).loc Cert.ReferenceIdeal.main_arg5))).trans ?_
    refine (Cert.ReferenceIdeal.Bridge.ref_eq _ _ _ _ _ _).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
